-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x24 : Shape := ⟨2, ![256, 24]⟩
abbrev S24 : Shape := ⟨1, ![24]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x24 : S_.BroadcastsInDim S256x24 (![] : Fin 0 → Fin S256x24.rank)
  reducesTo_S256x24_S_d0_1 : S256x24.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg5 : FVec F S24 .f32) (main_v13 : IVec S_ 1) (main_v16 : IVec S256x24 1) : IVec S_ 1 :=
  let main_c_5 : IVec S_ 1 := constantI S_ 1 1#1
  let main_v17 : IVec S_ 1 := (fun x v => Host.reduce IntOp.andi x v reducesTo_S256x24_S_d0_1 h_S_) main_v16 main_c_5
  let main_v18 : IVec S_ 1 := andi main_v13 main_v17
  let main_v19 : FVec F S24 .f32 := Host.absf main_arg5
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x256 .f32) (main_arg3 : FVec F S256 .f32) (main_arg4 : FVec F S256x24 .f32) (main_arg5 : FVec F S24 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x24 .f32 := Host.absf main_arg4
  let main_cst_4 : FVec F S_ .f32 := constant S_ .f32 0x7F800000#32
  let main_v15 : FVec F S256x24 .f32 := broadcastInDim S256x24 ![] bcast_S_S256x24 main_cst_4
  let main_v16 : IVec S256x24 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x24 : Shape := ⟨2, ![256, 24]⟩
abbrev S24 : Shape := ⟨1, ![24]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x256 : Shape := ⟨2, ![100000, 256]⟩
abbrev S2000x128 : Shape := ⟨2, ![2000, 128]⟩
abbrev S2000x256 : Shape := ⟨2, ![2000, 256]⟩
abbrev S1x256 : Shape := ⟨2, ![1, 256]⟩
abbrev S600000x256 : Shape := ⟨2, ![600000, 256]⟩
abbrev S100000x24 : Shape := ⟨2, ![100000, 24]⟩
abbrev S2000x24 : Shape := ⟨2, ![2000, 24]⟩
abbrev S1x24 : Shape := ⟨2, ![1, 24]⟩
abbrev S2000 : Shape := ⟨1, ![2000]⟩
abbrev S2000x1 : Shape := ⟨2, ![2000, 1]⟩

abbrev nBuf : Space → Nat
  | .hbm => 38
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x24, .f32⟩
  | .hbm, ⟨5, _⟩ => ⟨S24, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S100000x256, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x256, .f32⟩
  | .hbm, ⟨33, _⟩ => ⟨S_, .f32⟩
  | .hbm, ⟨34, _⟩ => ⟨S100000x256, .f32⟩
  | .hbm, ⟨35, _⟩ => ⟨S600000x1, .i32⟩
  | .hbm, ⟨36, _⟩ => ⟨S100000x256, .f32⟩
  | .hbm, ⟨37, _⟩ => ⟨S100000x24, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x24, .f32⟩
  | .local _ .vmem, ⟨13, _⟩ => ⟨S24, .f32⟩
  | .local _ .vmem, ⟨14, _⟩ => ⟨S2000x24, .f32⟩
  | .local _ .vmem, ⟨15, _⟩ => ⟨S2000x24, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  shapeCasts_S2000x256_S2000x256 : S2000x256.ShapeCasts S2000x256
  inb_S256x24_S256x24_0_0 : ∀ a, (![0, 0] : Fin 2 → Nat) a + S256x24.size a ≤ S256x24.size a
  h_S256x24 : 0 < S256x24.numel
  inb_S24_S24_0 : ∀ a, (![0] : Fin 1 → Nat) a + S24.size a ≤ S24.size a
  h_S24 : 0 < S24.numel
  shapeCasts_S24_S1x24 : S24.ShapeCasts S1x24
  broadcasts_S1x24_S2000x24 : S1x24.Broadcasts S2000x24
  reduces_S2000x24_S2000 : S2000x24.Reduces [1] S2000
  shapeCasts_S2000_S2000x1 : S2000.ShapeCasts S2000x1
  broadcasts_S2000x1_S2000x24 : S2000x1.Broadcasts S2000x24
  inb_S2000x24_S2000x24_0_0 : ∀ a, (![0, 0] : Fin 2 → Nat) a + S2000x24.size a ≤ S2000x24.size a
  h_S2000x24 : 0 < S2000x24.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x256_S2000x256_1_0_0_1_n_n_wf : DotDims.WF S2000x128 S128x256 S2000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S2000x256_S256x24_S2000x24_1_0_0_1_n_n_wf : DotDims.WF S2000x256 S256x24 S2000x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S100000x256.size a
  hwx0_4 : ∀ i : grid0.Coords, EltTy.bits .f32 = 32 ∨ (Rect.block (s := S100000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x24.size a ≤ S256x24.size a
  hwx1_2 : ∀ i : grid1.Coords, EltTy.bits .f32 = 32 ∨ (Rect.block (s := S256x24) S256x24.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S24.size a ≤ S24.size a
  hwx1_3 : ∀ i : grid1.Coords, EltTy.bits .f32 = 32 ∨ (Rect.block (s := S24) S24.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x24.size a ≤ S100000x24.size a
  hwx1_4 : ∀ i : grid1.Coords, EltTy.bits .f32 = 32 ∨ (Rect.block (s := S100000x24) S2000x24.size (cc1_transform_4 i) (hinb1_4 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S2000x256_S256x24_S2000x24_1_0_0_1_n_n : DotDims S2000x256 S256x24 S2000x24 where
  lhsContracting := [1]
  rhsContracting := [0]
  lhsNonContracting := [0]
  rhsNonContracting := [1]
  lhsBatch := []
  rhsBatch := []
  wf := dot_S2000x256_S256x24_S2000x24_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x24.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x24 : Shape := ⟨2, ![256, 24]⟩
abbrev S24 : Shape := ⟨1, ![24]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000x256 : Shape := ⟨2, ![100000, 256]⟩
abbrev S1x256 : Shape := ⟨2, ![1, 256]⟩
abbrev S600000x256 : Shape := ⟨2, ![600000, 256]⟩
abbrev S100000x24 : Shape := ⟨2, ![100000, 24]⟩
abbrev S1x24 : Shape := ⟨2, ![1, 24]⟩
abbrev S100000 : Shape := ⟨1, ![100000]⟩
abbrev S100000x1 : Shape := ⟨2, ![100000, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x24, .f32⟩
  | .hbm, ⟨5, _⟩ => ⟨S24, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x256, .f32⟩
  | .hbm, ⟨28, _⟩ => ⟨S1x256, .f32⟩
  | .hbm, ⟨29, _⟩ => ⟨S100000x256, .f32⟩
  | .hbm, ⟨30, _⟩ => ⟨S100000x256, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x256, .f32⟩
  | .hbm, ⟨43, _⟩ => ⟨S_, .f32⟩
  | .hbm, ⟨44, _⟩ => ⟨S100000x256, .f32⟩
  | .hbm, ⟨45, _⟩ => ⟨S600000x1, .i32⟩
  | .hbm, ⟨46, _⟩ => ⟨S100000x256, .f32⟩
  | .hbm, ⟨47, _⟩ => ⟨S_, .f32⟩
  | .hbm, ⟨48, _⟩ => ⟨S100000x256, .f32⟩
  | .hbm, ⟨49, _⟩ => ⟨S100000x256, .f32⟩
  | .hbm, ⟨50, _⟩ => ⟨S100000x256, .f32⟩
  | .hbm, ⟨51, _⟩ => ⟨S100000x24, .f32⟩
  | .hbm, ⟨52, _⟩ => ⟨S1x24, .f32⟩
  | .hbm, ⟨53, _⟩ => ⟨S100000x24, .f32⟩
  | .hbm, ⟨54, _⟩ => ⟨S100000x24, .f32⟩
  | .hbm, ⟨55, _⟩ => ⟨S_, .f32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x24, .f32⟩
  | .hbm, ⟨62, _⟩ => ⟨S100000x24, .f32⟩
  | .hbm, ⟨63, _⟩ => ⟨S100000x24, .f32⟩
  | .hbm, ⟨64, _⟩ => ⟨S_, .f32⟩
  | .hbm, ⟨65, _⟩ => ⟨S100000, .f32⟩
  | .hbm, ⟨66, _⟩ => ⟨S100000x1, .f32⟩
  | .hbm, ⟨67, _⟩ => ⟨S100000x1, .f32⟩
  | .hbm, ⟨68, _⟩ => ⟨S100000x24, .f32⟩
  | .hbm, ⟨69, _⟩ => ⟨S100000x24, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_call1_cst_0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_cst_1 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_v39 : Ref sig .tc := ⟨.hbm, 69, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S24_S1x24_1 : S24.BroadcastsInDim S1x24 (![1] : Fin 1 → Fin S1x24.rank)
  bcast_S1x24_S100000x24_0_1 : S1x24.BroadcastsInDim S100000x24 (![0, 1] : Fin 2 → Fin S100000x24.rank)
  reducesTo_S100000x24_S100000_d1 : S100000x24.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x24_0_1 : S100000x1.BroadcastsInDim S100000x24 (![0, 1] : Fin 2 → Fin S100000x24.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x256_S100000x256_1_0_0_1_n_n_wf : DotDims.WF S100000x128 S128x256 S100000x256 [1] [0] [0] [1] [] []
  gather_S100000x256_S600000x1_S600000x256_1_0_n_n_0_1_1256_wf : GatherDims.WF S100000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x24_S100000x24_1_0_0_1_n_n_wf : DotDims.WF S100000x256 S256x24 S100000x24 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S600000x1_S600000x256_1_0_n_n_0_1_1256 : GatherDims S100000x256 S600000x1 S600000x256 where
  offsetDims := [1]
  collapsedSliceDims := [0]
  operandBatchingDims := []
  startIndicesBatchingDims := []
  startIndexMap := [0]
  indexVectorDim := 1
  sliceSizes := ![1, 256]
  wf := gather_S100000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x24_S100000x24_1_0_0_1_n_n : DotDims S100000x256 S256x24 S100000x24 where
  lhsContracting := [1]
  rhsContracting := [0]
  lhsNonContracting := [0]
  rhsNonContracting := [1]
  lhsBatch := []
  rhsBatch := []
  wf := dot_S100000x256_S256x24_S100000x24_1_0_0_1_n_n_wf

class Facts : Prop extends Facts₀ where

variable [Facts]
-- ==== Proof.Spec.lean ====
/-
  The arithmetic both programs compute, written once over the extended reals.

  A layer of the network sends the features `x` of the nodes and the sum `a` of their neighbours' features to
  `(x · 1 + a) · W + b`, row by row: entry `(p, q)` is `∑ k, (x[p, k] · 1 + a[p, k]) · W[k, q] + b[q]`, and it
  depends on row `p` of `x` and of `a` only. The first layer clips that entry below at zero; the second takes the
  log-softmax of each row: `l[q] - max l - log (∑ j, exp (l[j] - max l))`, the maximum taken from `-∞`.
  The three float words that occur (1.0, 0.0, -∞) are kept as the extended reals their patterns denote and are
  never evaluated: the same word stands on both sides.
  Because an entry reads one row, the functions are stated for arrays of ANY number of rows `M`: a block of rows
  of the whole array and the whole array are instances of one definition.
-/
import Idealize.ShloMosaic.PureOps.Ideal
import Idealize.ShloMosaic.PureOps.Ideal.Laws
import Idealize.ShloMosaic.Lib.ValueIdx
import Mathlib.Data.Finset.Fold

noncomputable section

open scoped BigOperators

namespace Cert.Gin

open Idealize.ShloMosaic Idealize.ShloMosaic.ValueIdx

/-- The extended real the f32 word of 1.0 denotes. -/
def one32 : EReal := Ideal.ofBits .f32 0x3F800000#32
/-- The extended real the f32 word of 0.0 denotes. -/
def zero32 : EReal := Ideal.ofBits .f32 0x00000000#32
/-- The extended real the f32 word of -∞ denotes. -/
def ninf32 : EReal := Ideal.ofBits .f32 0xFF800000#32

/-- One entry of a layer before its activation, from a row `xr` of the features, the same row `ar` of the
    neighbours' sums, a column `w` of the weights and the bias entry `b`. -/
def pre {K : Nat} (xr ar w : Fin K → EReal) (b : EReal) : EReal :=
  (∑ k : Fin K, (xr k * one32 + ar k) * w k) + b

/-- The maximum of a row, taken from `-∞`. -/
def rowMax {N : Nat} (l : Fin N → EReal) : EReal := (Finset.univ : Finset (Fin N)).fold max ninf32 l

/-- The log-softmax of a row `l` at `q`. -/
def logSoftmax {N : Nat} (l : Fin N → EReal) (q : Fin N) : EReal :=
  (l q - rowMax l) - Ideal.log (∑ k : Fin N, Ideal.exp (l k - rowMax l))

/-- Entry `(p, q)` of `(x · 1 + a) · W + b` for arrays of `M` rows. -/
def dense {M K N : Nat} (x a : (⟨2, ![M, K]⟩ : Shape).Idx → EReal) (W : (⟨2, ![K, N]⟩ : Shape).Idx → EReal)
    (b : (⟨1, ![N]⟩ : Shape).Idx → EReal) (p : Fin M) (q : Fin N) : EReal :=
  pre (fun k => x (ix2 p k)) (fun k => a (ix2 p k)) (fun k => W (ix2 k q)) (b (ix1 q))

/-- The first layer: the dense entry clipped below at zero. -/
def layer1 {M K N : Nat} (x a : (⟨2, ![M, K]⟩ : Shape).Idx → EReal) (W : (⟨2, ![K, N]⟩ : Shape).Idx → EReal)
    (b : (⟨1, ![N]⟩ : Shape).Idx → EReal) (p : Fin M) (q : Fin N) : EReal :=
  max (dense x a W b p q) zero32

/-- The second layer: the log-softmax of row `p` of the dense entries, at `q`. -/
def layer2 {M K N : Nat} (x a : (⟨2, ![M, K]⟩ : Shape).Idx → EReal) (W : (⟨2, ![K, N]⟩ : Shape).Idx → EReal)
    (b : (⟨1, ![N]⟩ : Shape).Idx → EReal) (p : Fin M) (q : Fin N) : EReal :=
  logSoftmax (fun j => dense x a W b p j) q

/-- The maximum of a row taken from `-∞` is at least `-∞`, so a further maximum with `-∞` changes nothing. -/
theorem max_ninf_rowMax {N : Nat} (l : Fin N → EReal) : max ninf32 (rowMax l) = rowMax l :=
  max_eq_right ((Finset.le_fold_max _).mpr (Or.inl le_rfl))

/-- The f32 zero word denotes the extended real zero. -/
theorem zero32_eq : zero32 = 0 := Ideal.ofBits_zero_f32

/-- A dense entry reads one row: arrays that agree on row `p` (of `x`) and row `p'` (of `x'`) give the same entry. -/
theorem dense_congr {M M' K N : Nat} (x a : (⟨2, ![M, K]⟩ : Shape).Idx → EReal) (x' a' : (⟨2, ![M', K]⟩ : Shape).Idx → EReal)
    (W : (⟨2, ![K, N]⟩ : Shape).Idx → EReal) (b : (⟨1, ![N]⟩ : Shape).Idx → EReal) (p : Fin M) (p' : Fin M') (q : Fin N)
    (hx : ∀ k, x (ix2 p k) = x' (ix2 p' k)) (ha : ∀ k, a (ix2 p k) = a' (ix2 p' k)) :
    dense x a W b p q = dense x' a' W b p' q := by
  unfold dense
  rw [funext hx, funext ha]

theorem layer1_congr {M M' K N : Nat} (x a : (⟨2, ![M, K]⟩ : Shape).Idx → EReal) (x' a' : (⟨2, ![M', K]⟩ : Shape).Idx → EReal)
    (W : (⟨2, ![K, N]⟩ : Shape).Idx → EReal) (b : (⟨1, ![N]⟩ : Shape).Idx → EReal) (p : Fin M) (p' : Fin M') (q : Fin N)
    (hx : ∀ k, x (ix2 p k) = x' (ix2 p' k)) (ha : ∀ k, a (ix2 p k) = a' (ix2 p' k)) :
    layer1 x a W b p q = layer1 x' a' W b p' q := by
  unfold layer1
  rw [dense_congr x a x' a' W b p p' q hx ha]

theorem layer2_congr {M M' K N : Nat} (x a : (⟨2, ![M, K]⟩ : Shape).Idx → EReal) (x' a' : (⟨2, ![M', K]⟩ : Shape).Idx → EReal)
    (W : (⟨2, ![K, N]⟩ : Shape).Idx → EReal) (b : (⟨1, ![N]⟩ : Shape).Idx → EReal) (p : Fin M) (p' : Fin M') (q : Fin N)
    (hx : ∀ k, x (ix2 p k) = x' (ix2 p' k)) (ha : ∀ k, a (ix2 p k) = a' (ix2 p' k)) :
    layer2 x a W b p q = layer2 x' a' W b p' q := by
  unfold layer2
  rw [funext fun j => dense_congr x a x' a' W b p p' j hx ha]

end Cert.Gin

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KernelPay.lean ====
/-
  The two kernel bodies' stored values read at an index, at the ideal instance (floats are the extended reals).

  The first body stores max((x · 1 + a) · W + b, 0) and the second the log-softmax of the rows of
  (x · 1 + a) · W + b. Each stored value is one term over the body's loads; read at (p, q) the term is the
  entry the arithmetic of the layers names: the rounding to a narrower format is the identity on extended reals,
  a splat reads its word, the product accumulated into zeros is the sum over the contracted coordinate, the
  bias row is read at its column, a row's reduction is the fold or the sum over the row's coordinates, and a
  column put back over the row's entries is read at its row.
-/
import proofs.«157535_j84645215470228_1_alg».proof.Proof.Gen.KernelIdeal.Skeleton
import proofs.«157535_j84645215470228_1_alg».proof.Proof.Spec
import proofs.«157535_j84645215470228_1_alg».proof.Proof.LibDot2
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gin.KernelPay

open Idealize.ShloMosaic Idealize.ShloMosaic.ValueIdx Cert.KernelIdeal Cert.KernelIdeal.Gen

/-! ## Rows and columns put over a matrix -/

/-- A vector of N entries cast to one row [1, N] and broadcast over M rows reads, at (p, q), its entry q. -/
theorem row_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc 0 q)

/-- A vector of M entries cast to one column [M, 1] reads, at (i, u), its entry i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b columns reads, at (p, c), the column's entry p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The dense entry -/

/-- The layer before its activation, as both bodies write it: (x · 1 + a) rounded to the narrow format, times the
    weights rounded likewise, accumulated into zeros, plus the bias row. At (p, q) it is the dense entry. -/
theorem dense_apply {M K N : Nat}
    (wf : DotDims.WF ⟨2, ![M, K]⟩ ⟨2, ![K, N]⟩ ⟨2, ![M, N]⟩ [1] [0] [0] [1] [] [])
    (x a : FVec Ideal ⟨2, ![M, K]⟩ .f32) (W : FVec Ideal ⟨2, ![K, N]⟩ .f32) (b : FVec Ideal ⟨1, ![N]⟩ .f32)
    (hs : (⟨2, ![M, K]⟩ : Shape).ShapeCasts ⟨2, ![M, K]⟩) (hlt : FTy.bits .bf16 < FTy.bits .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul (Dot2.mmDims M K N wf) none
          (truncf .bf16 (addf (mulf x (broadcast ⟨2, ![M, K]⟩ (Scalar.ofBits (F := Ideal) .f32 0x3F800000#32)))
            (shapeCast ⟨2, ![M, K]⟩ a hs)) hlt)
          (truncf .bf16 W hlt) (constant ⟨2, ![M, N]⟩ .f32 0x00000000#32))
        (broadcastTo ⟨2, ![M, N]⟩ (shapeCast ⟨2, ![1, N]⟩ b hc) hb) (ix2 p q)
      = Cert.Gin.dense x a W b p q := by
  rw [shapeCast_self a hs]
  refine (addf_apply _ _ _).trans ?_
  rw [row_apply b hc hb p q]
  unfold Cert.Gin.dense Cert.Gin.pre
  exact congrArg (· + b (ix1 q)) (Dot2.matmul_zero_mm_apply wf none _ _ p q)

/-! ## A row's maximum and a row's sum, put back over the row -/

/-- The index of the matrix over row p of the reduced vector with coordinate k on the reduced axis is (p, k). -/
theorem lift_ix1 {M N : Nat} (hr : (⟨2, ![M, N]⟩ : Shape).Reduces [1] ⟨1, ![M]⟩) (p : Fin M) (k : Fin N) :
    hr.lift (ix1 p) k = ix2 p k := by
  funext c
  apply Fin.ext
  match c with
  | ⟨0, _⟩ => rfl
  | ⟨1, _⟩ => rfl

/-- The maximum over axis 1 from the word of -∞, cast to a column and broadcast over the row: at (p, q) it is the
    maximum of row p taken from -∞. -/
theorem rowMax_apply {M N : Nat} (v : FVec Ideal ⟨2, ![M, N]⟩ .f32)
    (hr : (⟨2, ![M, N]⟩ : Shape).Reduces [1] ⟨1, ![M]⟩) (hφ : FKind.Formats .f32)
    (hacc : (0xFF800000#32 : BitVec 32) = FKind.maximumf.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    broadcastTo ⟨2, ![M, N]⟩ (shapeCast ⟨2, ![M, 1]⟩
        (multiReduction .maximumf [1] ⟨1, ![M]⟩ v 0xFF800000#32 hr hφ hacc) hc) hb (ix2 p q)
      = Cert.Gin.rowMax (fun j => v (ix2 p j)) := by
  rw [broadcastTo_a1_ab_apply _ hb p q, shapeCast_a_a1_apply _ hc p 0,
    Ideal.multiReduction_maximumf_single v _ hr hφ hacc (ix1 p)]
  unfold Cert.Gin.rowMax Cert.Gin.ninf32
  exact congrArg (fun f => (Finset.univ : Finset (Fin N)).fold max (Ideal.ofBits .f32 0xFF800000#32) f)
    (funext fun k => congrArg v (lift_ix1 hr p k))

/-- The sum over axis 1, cast to a column: at (p, u) it is the sum of row p. -/
theorem rowSum_apply {M N : Nat} (v : FVec Ideal ⟨2, ![M, N]⟩ .f32)
    (hr : (⟨2, ![M, N]⟩ : Shape).Reduces [1] ⟨1, ![M]⟩) (hφ : FKind.Formats .f32)
    (hacc : (0x00000000#32 : BitVec 32) = FKind.add.neutral .f32 hφ)
    (hc : (⟨1, ![M]⟩ : Shape).ShapeCasts ⟨2, ![M, 1]⟩) (p : Fin M) (u : Fin 1) :
    shapeCast ⟨2, ![M, 1]⟩ (multiReduction .add [1] ⟨1, ![M]⟩ v 0x00000000#32 hr hφ hacc) hc (ix2 p u)
      = ∑ k : Fin N, v (ix2 p k) := by
  rw [shapeCast_a_a1_apply _ hc p u, Ideal.multiReduction_add_single v _ hr hφ hacc (ix1 p)]
  exact Finset.sum_congr rfl fun k _ => congrArg v (lift_ix1 hr p k)

/-! ## Pointwise functions read at an index -/

/-- The exponential of an array read at an index is the exponential of the entry. -/
theorem exp_apply {s : Shape} {φ : FTy} (a : FVec Ideal s φ) (i : s.Idx) : exp a i = Ideal.exp (a i) := rfl

/-- The logarithm of an array read at an index is the logarithm of the entry. -/
theorem log_apply {s : Shape} {φ : FTy} (a : FVec Ideal s φ) (i : s.Idx) : log a i = Ideal.log (a i) := rfl

/-! ## The log-softmax of the rows -/

/-- The log-softmax of the rows of an array as the second body writes it: the row maximum from -∞ put back over
    the row and subtracted, the exponential, the row sum, its logarithm on the column, put back over the row and
    subtracted. At (p, q) it is the log-softmax of row p at q. -/
theorem logSoftmax_apply {M N : Nat} (v : FVec Ideal ⟨2, ![M, N]⟩ .f32)
    (hr : (⟨2, ![M, N]⟩ : Shape).Reduces [1] ⟨1, ![M]⟩) (hφ : FKind.Formats .f32)
    (haccM : (0xFF800000#32 : BitVec 32) = FKind.maximumf.neutral .f32 hφ)
    (haccA : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    subf
        (subf v (broadcastTo ⟨2, ![M, N]⟩ (shapeCast ⟨2, ![M, 1]⟩
          (multiReduction .maximumf [1] ⟨1, ![M]⟩ v 0xFF800000#32 hr hφ haccM) hc) hb))
        (broadcastTo ⟨2, ![M, N]⟩ (log (shapeCast ⟨2, ![M, 1]⟩
          (multiReduction .add [1] ⟨1, ![M]⟩
            (exp (subf v (broadcastTo ⟨2, ![M, N]⟩ (shapeCast ⟨2, ![M, 1]⟩
              (multiReduction .maximumf [1] ⟨1, ![M]⟩ v 0xFF800000#32 hr hφ haccM) hc) hb)))
            0x00000000#32 hr hφ haccA) hc)) hb) (ix2 p q)
      = Cert.Gin.logSoftmax (fun j => v (ix2 p j)) q := by
  unfold Cert.Gin.logSoftmax
  refine (subf_apply _ _ _).trans ?_
  refine congrArg₂ (· - ·) ?_ ?_
  · refine (subf_apply _ _ _).trans ?_
    rw [rowMax_apply v hr hφ haccM hc hb p q]
  · rw [broadcastTo_a1_ab_apply _ hb p q]
    refine (log_apply _ _).trans (congrArg Ideal.log ?_)
    rw [rowSum_apply _ hr hφ haccA hc p 0]
    refine Finset.sum_congr rfl fun k _ => ?_
    refine (exp_apply _ _).trans (congrArg Ideal.exp ?_)
    refine (subf_apply _ _ _).trans ?_
    rw [rowMax_apply v hr hφ haccM hc hb p k]

/-! ## The two stored values -/

/-- The first body's stored value at (p, q) is the first layer's entry. -/
theorem pay1_apply (x0 x1 : Vec Ideal S2000x128 .f32) (x2 : Vec Ideal S128x256 .f32) (x3 : Vec Ideal S256 .f32)
    (p : Fin 2000) (q : Fin 256) :
    k0_pay1 (F := Ideal) x0 x1 x2 x3 (ix2 p q) = Cert.Gin.layer1 x0 x1 x2 x3 p q := by
  unfold k0_pay1 Cert.Gin.layer1
  refine (maximumf_apply _ _ _).trans ?_
  exact congrArg (max · Cert.Gin.zero32) (dense_apply _ x0 x1 x2 x3 _ _ _ _ p q)

/-- The second body's stored value at (p, q) is the second layer's entry. -/
theorem pay2_apply (x0 x1 : Vec Ideal S2000x256 .f32) (x2 : Vec Ideal S256x24 .f32) (x3 : Vec Ideal S24 .f32)
    (p : Fin 2000) (q : Fin 24) :
    k1_pay1 (F := Ideal) x0 x1 x2 x3 (ix2 p q) = Cert.Gin.layer2 x0 x1 x2 x3 p q := by
  unfold k1_pay1 Cert.Gin.layer2
  refine (logSoftmax_apply _ _ _ _ _ _ _ p q).trans ?_
  refine congrArg (fun l => Cert.Gin.logSoftmax l q) (funext fun j => ?_)
  rw [shapeCast_self x0 shapeCasts_S2000x256_S2000x256]
  exact dense_apply _ x0 x1 x2 x3 _ _ _ _ p j

end Cert.Gin.KernelPay

end
-- ==== Proof.KernelBlocks.lean ====
/-
  From blocks to arrays. Each launch walks 50 blocks of 2000 rows; at block `t` the body reads rows
  `2000·t … 2000·t + 1999` of the features and of the neighbours' sums, the whole weight matrix and the whole bias,
  and writes rows `2000·t … 2000·t + 1999` of its result. A layer's entry `(r, q)` reads row `r` of its two
  row-blocked operands only, so what block `t` writes is rows `2000·t …` of ONE function of the whole arrays; the
  50 blocks tile the 100000 rows, so after the launch the result array IS that function of the arrays as the launch
  found them.
-/
import proofs.«157535_j84645215470228_1_alg».proof.Proof.Gen.KernelIdeal.Frame
import proofs.«157535_j84645215470228_1_alg».proof.Proof.Spec
import proofs.«157535_j84645215470228_1_alg».proof.Proof.KernelPay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.Gin.Blocks

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first launch -/

/-- The printed index maps of the first launch, decided over its 50 points: the row-blocked windows sit at block row
    `t`, the weights and the bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem lt0 (t : Fin cfg0.N) : t.val < 50 := lt_of_lt_of_eq t.isLt N_0

/-- Row `p` of block `t` of the features is row `2000·t + p` of the array. -/
theorem iblk0_0_apply (c : Dev nD) (t : Fin cfg0.N) (p : Fin 2000) (k : Fin 128) :
    (iblk0 V c 0 t : Vec Ideal S2000x128 .f32) (ix2 p k)
      = (V c main_arg0 : S100000x128.Idx → EReal) (ix2 ⟨t.val * 2000 + p.val, by have := lt0 t; omega⟩ k) := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * p.val = t.val * 2000 + p.val; rw [e0]; omega
  | ⟨1, _⟩ => show win0_0.index t 1 * 128 + 1 * k.val = k.val; rw [e1]; omega

/-- Row `p` of block `t` of the neighbours' sums is row `2000·t + p` of the array. -/
theorem iblk0_1_apply (c : Dev nD) (t : Fin cfg0.N) (p : Fin 2000) (k : Fin 128) :
    (iblk0 V c 1 t : Vec Ideal S2000x128 .f32) (ix2 p k)
      = (V c main_v13 : S100000x128.Idx → EReal) (ix2 ⟨t.val * 2000 + p.val, by have := lt0 t; omega⟩ k) := by
  obtain ⟨-, -, e0, e1, -⟩ := idx0 t
  unfold iblk0
  rw [View.read_apply]
  show V c main_v13 _ = V c main_v13 _
  congr 1
  funext a
  apply Fin.ext
  match a with
  | ⟨0, _⟩ => show win0_1.index t 0 * 2000 + 1 * p.val = t.val * 2000 + p.val; rw [e0]; omega
  | ⟨1, _⟩ => show win0_1.index t 1 * 128 + 1 * k.val = k.val; rw [e1]; omega

/-- The weights' one block is the whole matrix. -/
theorem iblk0_2_apply (c : Dev nD) (t : Fin cfg0.N) (k : Fin 128) (q : Fin 256) :
    (iblk0 V c 2 t : Vec Ideal S128x256 .f32) (ix2 k q) = (V c main_arg2 : S128x256.Idx → EReal) (ix2 k q) := by
  obtain ⟨-, -, -, -, e0, e1, -⟩ := idx0 t
  unfold iblk0
  rw [View.read_apply]
  show V c main_arg2 _ = V c main_arg2 _
  congr 1
  funext a
  apply Fin.ext
  match a with
  | ⟨0, _⟩ => show win0_2.index t 0 * 128 + 1 * k.val = k.val; rw [e0]; omega
  | ⟨1, _⟩ => show win0_2.index t 1 * 256 + 1 * q.val = q.val; rw [e1]; omega

/-- The bias's one block is the whole vector. -/
theorem iblk0_3_apply (c : Dev nD) (t : Fin cfg0.N) (q : Fin 256) :
    (iblk0 V c 3 t : Vec Ideal S256 .f32) (ix1 q) = (V c main_arg3 : S256.Idx → EReal) (ix1 q) := by
  obtain ⟨-, -, -, -, -, -, e0, -⟩ := idx0 t
  unfold iblk0
  rw [View.read_apply]
  show V c main_arg3 _ = V c main_arg3 _
  congr 1
  funext a
  apply Fin.ext
  match a with
  | ⟨0, _⟩ => show win0_3.index t 0 * 256 + 1 * q.val = q.val; rw [e0]; omega

/-- The first layer's result as ONE function of the arrays the launch finds. -/
def G0 (c : Dev nD) : S100000x256.Idx → EReal := fun i =>
  Cert.Gin.layer1 (V c main_arg0 : S100000x128.Idx → EReal) (V c main_v13 : S100000x128.Idx → EReal)
    (V c main_arg2 : S128x256.Idx → EReal) (V c main_arg3 : S256.Idx → EReal) ⟨(i 0).val, idx2_lt0 i⟩ ⟨(i 1).val, idx2_lt1 i⟩

/-- What the body stores at block `t`, at `(p, q)`, is the layer's entry `(2000·t + p, q)` of the whole arrays. -/
theorem entry0 (c : Dev nD) (t : Fin cfg0.N) (p : Fin 2000) (q : Fin 256) :
    k0_pay1 (F := Ideal) (iblk0 V c 0 t) (iblk0 V c 1 t) (iblk0 V c 2 t) (iblk0 V c 3 t) (ix2 p q)
      = Cert.Gin.layer1 (V c main_arg0 : S100000x128.Idx → EReal) (V c main_v13 : S100000x128.Idx → EReal)
          (V c main_arg2 : S128x256.Idx → EReal) (V c main_arg3 : S256.Idx → EReal)
          ⟨t.val * 2000 + p.val, by have := lt0 t; omega⟩ q := by
  refine (Cert.Gin.KernelPay.pay1_apply (iblk0 V c 0 t) (iblk0 V c 1 t) (iblk0 V c 2 t) (iblk0 V c 3 t) p q).trans ?_
  unfold Cert.Gin.layer1 Cert.Gin.dense
  rw [funext fun k => iblk0_0_apply V c t p k, funext fun k => iblk0_1_apply V c t p k,
    funext fun k => iblk0_2_apply V c t k q, iblk0_3_apply V c t q]

/-- The same at any index `y` of the block and the index `i` of the array it lands on. -/
theorem entry0_at (c : Dev nD) (t : Fin cfg0.N) (y : S2000x256.Idx) (i : S100000x256.Idx)
    (h0 : (i 0).val = t.val * 2000 + (y 0).val) (h1 : (i 1).val = (y 1).val) :
    k0_pay1 (F := Ideal) (iblk0 V c 0 t) (iblk0 V c 1 t) (iblk0 V c 2 t) (iblk0 V c 3 t) y = G0 V c i := by
  obtain ⟨p, q, rfl⟩ : ∃ (p : Fin 2000) (q : Fin 256), y = ix2 p q := ⟨y 0, y 1, eq_ix2 y⟩
  refine (entry0 V c t p q).trans ?_
  unfold G0
  congr 1
  · exact Fin.ext h0.symm
  · exact Fin.ext h1.symm

/-- WHAT BLOCK `t` WRITES BACK is rows `2000·t …` of `G0`. -/
theorem flushed0_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S128x256) hz2, View.ld_unit_zero (S := S256) hz1]
  obtain ⟨-, -, -, -, -, -, -, e0, e1⟩ := idx0 t
  funext j
  show k0_pay1 (F := Ideal) (iblk0 V c 0 t) (iblk0 V c 1 t) (iblk0 V c 2 t) (iblk0 V c 3 t) j = G0 V c (((cfg0.win 4).blk t).view.emb j)
  exact entry0_at V c t j _
    (by show win0_4.index t 0 * 2000 + 1 * (j 0).val = t.val * 2000 + (j 0).val; rw [e0]; omega)
    (by show win0_4.index t 1 * 256 + 1 * (j 1).val = (j 1).val; rw [e1]; omega)

/-- An index of the result array is in block `t` iff each coordinate is in the block's range on its axis. -/
theorem mem_blk0 (t : Fin cfg0.N) (i : S100000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v14).slice (win0_4.rect t)).set ↔ _
  rw [View.set_slice_whole, Rect.mem_set_unit]
  exact Iff.rfl

/-- Row `r` lies in block `r / 2000`: the 50 blocks tile the 100000 rows. -/
theorem cover0 (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  have ht : (i 0).val / 2000 < cfg0.N := lt_of_lt_of_eq (by omega : (i 0).val / 2000 < 50) N_0.symm
  obtain ⟨-, -, -, -, -, -, -, e0, e1⟩ := idx0 ⟨(i 0).val / 2000, ht⟩
  refine ⟨⟨(i 0).val / 2000, ht⟩, flush0_4 _, ?_⟩
  rw [mem_blk0]
  intro a
  match a with
  | ⟨0, _⟩ =>
    show win0_4.index ⟨(i 0).val / 2000, ht⟩ 0 * 2000 ≤ (i 0).val ∧ (i 0).val < win0_4.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ 1 * 256 ≤ (i 1).val ∧ (i 1).val < win0_4.index ⟨(i 0).val / 2000, ht⟩ 1 * 256 + 256
    rw [e1]; omega

/-- AFTER THE FIRST LAUNCH its result array is `G0` of the arrays the launch found. -/
theorem final0 (c : Dev nD) : (dat0 V c).arrAt 4 cfg0.N = G0 V c :=
  (dat0 V c).arrAt_eq_of_cover 4 (G0 V c) (fun t _ => flushed0_eq V c t) cover0

/-! ## The second launch -/

/-- The printed index maps of the second launch, decided over its 50 points: the row-blocked windows sit at block row
    `t`, the weights and the bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

theorem lt1 (t : Fin cfg1.N) : t.val < 50 := lt_of_lt_of_eq t.isLt N_1

/-- Row `p` of block `t` of the features is row `2000·t + p` of the array. -/
theorem iblk1_0_apply (c : Dev nD) (t : Fin cfg1.N) (p : Fin 2000) (k : Fin 256) :
    (iblk1 V c 0 t : Vec Ideal S2000x256 .f32) (ix2 p k)
      = (V c main_v14 : S100000x256.Idx → EReal) (ix2 ⟨t.val * 2000 + p.val, by have := lt1 t; omega⟩ k) := by
  obtain ⟨e0, e1, -⟩ := idx1 t
  unfold iblk1
  rw [View.read_apply]
  show V c main_v14 _ = V c main_v14 _
  congr 1
  funext a
  apply Fin.ext
  match a with
  | ⟨0, _⟩ => show win1_0.index t 0 * 2000 + 1 * p.val = t.val * 2000 + p.val; rw [e0]; omega
  | ⟨1, _⟩ => show win1_0.index t 1 * 256 + 1 * k.val = k.val; rw [e1]; omega

/-- Row `p` of block `t` of the neighbours' sums is row `2000·t + p` of the array. -/
theorem iblk1_1_apply (c : Dev nD) (t : Fin cfg1.N) (p : Fin 2000) (k : Fin 256) :
    (iblk1 V c 1 t : Vec Ideal S2000x256 .f32) (ix2 p k)
      = (V c main_v24 : S100000x256.Idx → EReal) (ix2 ⟨t.val * 2000 + p.val, by have := lt1 t; omega⟩ k) := by
  obtain ⟨-, -, e0, e1, -⟩ := idx1 t
  unfold iblk1
  rw [View.read_apply]
  show V c main_v24 _ = V c main_v24 _
  congr 1
  funext a
  apply Fin.ext
  match a with
  | ⟨0, _⟩ => show win1_1.index t 0 * 2000 + 1 * p.val = t.val * 2000 + p.val; rw [e0]; omega
  | ⟨1, _⟩ => show win1_1.index t 1 * 256 + 1 * k.val = k.val; rw [e1]; omega

/-- The weights' one block is the whole matrix. -/
theorem iblk1_2_apply (c : Dev nD) (t : Fin cfg1.N) (k : Fin 256) (q : Fin 24) :
    (iblk1 V c 2 t : Vec Ideal S256x24 .f32) (ix2 k q) = (V c main_arg4 : S256x24.Idx → EReal) (ix2 k q) := by
  obtain ⟨-, -, -, -, e0, e1, -⟩ := idx1 t
  unfold iblk1
  rw [View.read_apply]
  show V c main_arg4 _ = V c main_arg4 _
  congr 1
  funext a
  apply Fin.ext
  match a with
  | ⟨0, _⟩ => show win1_2.index t 0 * 256 + 1 * k.val = k.val; rw [e0]; omega
  | ⟨1, _⟩ => show win1_2.index t 1 * 24 + 1 * q.val = q.val; rw [e1]; omega

/-- The bias's one block is the whole vector. -/
theorem iblk1_3_apply (c : Dev nD) (t : Fin cfg1.N) (q : Fin 24) :
    (iblk1 V c 3 t : Vec Ideal S24 .f32) (ix1 q) = (V c main_arg5 : S24.Idx → EReal) (ix1 q) := by
  obtain ⟨-, -, -, -, -, -, e0, -⟩ := idx1 t
  unfold iblk1
  rw [View.read_apply]
  show V c main_arg5 _ = V c main_arg5 _
  congr 1
  funext a
  apply Fin.ext
  match a with
  | ⟨0, _⟩ => show win1_3.index t 0 * 24 + 1 * q.val = q.val; rw [e0]; omega

/-- The second layer's result as ONE function of the arrays the launch finds. -/
def G1 (c : Dev nD) : S100000x24.Idx → EReal := fun i =>
  Cert.Gin.layer2 (V c main_v14 : S100000x256.Idx → EReal) (V c main_v24 : S100000x256.Idx → EReal)
    (V c main_arg4 : S256x24.Idx → EReal) (V c main_arg5 : S24.Idx → EReal) ⟨(i 0).val, idx2_lt0 i⟩ ⟨(i 1).val, idx2_lt1 i⟩

/-- What the body stores at block `t`, at `(p, q)`, is the layer's entry `(2000·t + p, q)` of the whole arrays. -/
theorem entry1 (c : Dev nD) (t : Fin cfg1.N) (p : Fin 2000) (q : Fin 24) :
    k1_pay1 (F := Ideal) (iblk1 V c 0 t) (iblk1 V c 1 t) (iblk1 V c 2 t) (iblk1 V c 3 t) (ix2 p q)
      = Cert.Gin.layer2 (V c main_v14 : S100000x256.Idx → EReal) (V c main_v24 : S100000x256.Idx → EReal)
          (V c main_arg4 : S256x24.Idx → EReal) (V c main_arg5 : S24.Idx → EReal)
          ⟨t.val * 2000 + p.val, by have := lt1 t; omega⟩ q := by
  refine (Cert.Gin.KernelPay.pay2_apply (iblk1 V c 0 t) (iblk1 V c 1 t) (iblk1 V c 2 t) (iblk1 V c 3 t) p q).trans ?_
  unfold Cert.Gin.layer2
  refine congrArg (fun l => Cert.Gin.logSoftmax l q) (funext fun j => ?_)
  unfold Cert.Gin.dense
  rw [funext fun k => iblk1_0_apply V c t p k, funext fun k => iblk1_1_apply V c t p k,
    funext fun k => iblk1_2_apply V c t k j, iblk1_3_apply V c t j]

/-- The same at any index `y` of the block and the index `i` of the array it lands on. -/
theorem entry1_at (c : Dev nD) (t : Fin cfg1.N) (y : S2000x24.Idx) (i : S100000x24.Idx)
    (h0 : (i 0).val = t.val * 2000 + (y 0).val) (h1 : (i 1).val = (y 1).val) :
    k1_pay1 (F := Ideal) (iblk1 V c 0 t) (iblk1 V c 1 t) (iblk1 V c 2 t) (iblk1 V c 3 t) y = G1 V c i := by
  obtain ⟨p, q, rfl⟩ : ∃ (p : Fin 2000) (q : Fin 24), y = ix2 p q := ⟨y 0, y 1, eq_ix2 y⟩
  refine (entry1 V c t p q).trans ?_
  unfold G1
  congr 1
  · exact Fin.ext h0.symm
  · exact Fin.ext h1.symm

/-- WHAT BLOCK `t` WRITES BACK is rows `2000·t …` of `G1`. -/
theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz2]
  simp only [View.ld_unit_zero (S := S2000x256) hz2, View.ld_unit_zero (S := S256x24) hz2, View.ld_unit_zero (S := S24) hz1]
  obtain ⟨-, -, -, -, -, -, -, e0, e1⟩ := idx1 t
  funext j
  show k1_pay1 (F := Ideal) (iblk1 V c 0 t) (iblk1 V c 1 t) (iblk1 V c 2 t) (iblk1 V c 3 t) j = G1 V c (((cfg1.win 4).blk t).view.emb j)
  exact entry1_at V c t j _
    (by show win1_4.index t 0 * 2000 + 1 * (j 0).val = t.val * 2000 + (j 0).val; rw [e0]; omega)
    (by show win1_4.index t 1 * 24 + 1 * (j 1).val = (j 1).val; rw [e1]; omega)

/-- An index of the result array is in block `t` iff each coordinate is in the block's range on its axis. -/
theorem mem_blk1 (t : Fin cfg1.N) (i : S100000x24.Idx) :
    i ∈ ((cfg1.win 4).blk t).view.set ↔ ∀ a : Fin 2, win1_4.index t a * S2000x24.size a ≤ (i a).val ∧ (i a).val < win1_4.index t a * S2000x24.size a + S2000x24.size a := by
  show i ∈ ((View.whole main_v25).slice (win1_4.rect t)).set ↔ _
  rw [View.set_slice_whole, Rect.mem_set_unit]
  exact Iff.rfl

/-- Row `r` lies in block `r / 2000`: the 50 blocks tile the 100000 rows. -/
theorem cover1 (i : S100000x24.Idx) :
    ∃ t : Fin cfg1.N, (cfg1.win 4).flush t = true ∧ i ∈ ((cfg1.win 4).blk t).view.set := by
  have hi0 : (i 0).val < 100000 := (i 0).isLt
  have hi1 : (i 1).val < 24 := (i 1).isLt
  have ht : (i 0).val / 2000 < cfg1.N := lt_of_lt_of_eq (by omega : (i 0).val / 2000 < 50) N_1.symm
  obtain ⟨-, -, -, -, -, -, -, e0, e1⟩ := idx1 ⟨(i 0).val / 2000, ht⟩
  refine ⟨⟨(i 0).val / 2000, ht⟩, flush1_4 _, ?_⟩
  rw [mem_blk1]
  intro a
  match a with
  | ⟨0, _⟩ =>
    show win1_4.index ⟨(i 0).val / 2000, ht⟩ 0 * 2000 ≤ (i 0).val ∧ (i 0).val < win1_4.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ 1 * 24 ≤ (i 1).val ∧ (i 1).val < win1_4.index ⟨(i 0).val / 2000, ht⟩ 1 * 24 + 24
    rw [e1]; omega

/-- AFTER THE SECOND LAUNCH its result array is `G1` of the arrays the launch found. -/
theorem final1 (c : Dev nD) : (dat1 V c).arrAt 4 cfg1.N = G1 V c :=
  (dat1 V c).arrAt_eq_of_cover 4 (G1 V c) (fun t _ => flushed1_eq V c t) cover1

end Cert.Gin.Blocks

end
-- ==== Proof.KernelValue.lean ====
/-
  The host side of the kernel's program, and its result as one function of the arguments.

  Before the first launch the program sums, for every node, the 128 features of the source nodes of its incoming
  edges (`agg128`: a gather of the rows the edges name and an accumulating scatter onto the destination rows). The
  first launch finds the features, that sum, the first weights and bias as launched or as just computed, and leaves
  the hidden features `hidden`. Between the launches the program sums the hidden features the same way (`agg256`)
  over the same edges, whose two rows of node numbers were cut out of the edge array before the first launch and are
  untouched by it. The second launch finds the hidden features, their sum, the second weights and bias, and leaves
  the result `result`.
-/
import proofs.«157535_j84645215470228_1_alg».proof.Proof.Gen.KernelIdeal.Frame
import proofs.«157535_j84645215470228_1_alg».proof.Proof.KernelBlocks
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.Gin.KernelValue

open Cert.KernelIdeal Cert.KernelIdeal.Gen

/-- The edges' source nodes: row 0 of the edge array. -/
def srcOf (e : (⟨S2x600000, .i32⟩ : BufTy).Contents (Elt Ideal)) : (⟨S600000, .i32⟩ : BufTy).Contents (Elt Ideal) :=
  shapeCast _ (extractStridedSlice S1x600000 ![0, 0] e slices_S2x600000_S1x600000_0_0) shapeCasts_S1x600000_S600000
/-- The edges' destination nodes: row 1 of the edge array. -/
def dstOf (e : (⟨S2x600000, .i32⟩ : BufTy).Contents (Elt Ideal)) : (⟨S600000, .i32⟩ : BufTy).Contents (Elt Ideal) :=
  shapeCast _ (extractStridedSlice S1x600000 ![1, 0] e slices_S2x600000_S1x600000_1_0) shapeCasts_S1x600000_S600000
/-- A negative node number counts from the end. -/
def wrap (s : (⟨S600000, .i32⟩ : BufTy).Contents (Elt Ideal)) : (⟨S600000, .i32⟩ : BufTy).Contents (Elt Ideal) :=
  select (cmpi .slt s (broadcastInDim S600000 ![] bcast_S_S600000 (constantI S_ 32 0#32)))
    (addi s (broadcastInDim S600000 ![] bcast_S_S600000 (constantI S_ 32 100000#32))) s
/-- The sum over each node's incoming edges of the source node's 128 features. -/
def agg128 (x : (⟨S100000x128, .f32⟩ : BufTy).Contents (Elt Ideal)) (e : (⟨S2x600000, .i32⟩ : BufTy).Contents (Elt Ideal)) :
    (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 (dstOf e))
    (Host.gather gather_S100000x128_S600000x1_S600000x128_1_0_n_n_0_1_1128 x
      (broadcastInDim S600000x1 ![0] bcast_S600000_S600000x1_0 (wrap (srcOf e))))
/-- The same sum of the source node's 256 hidden features. -/
def agg256 (h : (⟨S100000x256, .f32⟩ : BufTy).Contents (Elt Ideal)) (e : (⟨S2x600000, .i32⟩ : BufTy).Contents (Elt Ideal)) :
    (⟨S100000x256, .f32⟩ : BufTy).Contents (Elt Ideal) :=
  Host.scatterAdd scatter_S100000x256_S600000x1_S600000x256_1_0_0_1
    (broadcastInDim S100000x256 ![] bcast_S_S100000x256 (constant (F := Ideal) S_ .f32 0x00000000#32))
    (broadcastInDim S600000x1 ![0] bcast_S600000_S600000x1_0 (dstOf e))
    (Host.gather gather_S100000x256_S600000x1_S600000x256_1_0_n_n_0_1_1256 h
      (broadcastInDim S600000x1 ![0] bcast_S600000_S600000x1_0 (wrap (srcOf e))))

variable (m : (ℓ : Loc nD τ sig) → Buf (Elt Ideal) ℓ) (ρ : Dev nD → PrngReg)

/-- The hidden features: the first layer over the features and their neighbours' sums. -/
def hidden (x : (⟨S100000x128, .f32⟩ : BufTy).Contents (Elt Ideal)) (e : (⟨S2x600000, .i32⟩ : BufTy).Contents (Elt Ideal))
    (W1 : (⟨S128x256, .f32⟩ : BufTy).Contents (Elt Ideal)) (b1 : (⟨S256, .f32⟩ : BufTy).Contents (Elt Ideal)) :
    (⟨S100000x256, .f32⟩ : BufTy).Contents (Elt Ideal) := fun i =>
  Cert.Gin.layer1 (x : S100000x128.Idx → EReal) (agg128 x e : S100000x128.Idx → EReal) (W1 : S128x256.Idx → EReal)
    (b1 : S256.Idx → EReal) ⟨(i 0).val, idx2_lt0 i⟩ ⟨(i 1).val, idx2_lt1 i⟩

/-- The result: the second layer over the hidden features and their neighbours' sums. -/
def result (x : (⟨S100000x128, .f32⟩ : BufTy).Contents (Elt Ideal)) (e : (⟨S2x600000, .i32⟩ : BufTy).Contents (Elt Ideal))
    (W1 : (⟨S128x256, .f32⟩ : BufTy).Contents (Elt Ideal)) (b1 : (⟨S256, .f32⟩ : BufTy).Contents (Elt Ideal))
    (W2 : (⟨S256x24, .f32⟩ : BufTy).Contents (Elt Ideal)) (b2 : (⟨S24, .f32⟩ : BufTy).Contents (Elt Ideal)) :
    (⟨S100000x24, .f32⟩ : BufTy).Contents (Elt Ideal) := fun i =>
  Cert.Gin.layer2 (hidden x e W1 b1 : S100000x256.Idx → EReal) (agg256 (hidden x e W1 b1) e : S100000x256.Idx → EReal)
    (W2 : S256x24.Idx → EReal) (b2 : S24.Idx → EReal) ⟨(i 0).val, idx2_lt0 i⟩ ⟨(i 1).val, idx2_lt1 i⟩

variable (m : (ℓ : Loc nD τ sig) → Buf (Elt Ideal) ℓ) (ρ : Dev nD → PrngReg)

/-! ## What the first launch finds -/

theorem V1_arg0 (c : Dev nD) : V1 m ρ c main_arg0 = m ((c.tc : Thread nD τ).loc main_arg0) := by
  show StableHlo.after hostOps0 (W0 m ρ c) (Proc.devRef .tc main_arg0) = _
  after_results

theorem V1_arg2 (c : Dev nD) : V1 m ρ c main_arg2 = m ((c.tc : Thread nD τ).loc main_arg2) := by
  show StableHlo.after hostOps0 (W0 m ρ c) (Proc.devRef .tc main_arg2) = _
  after_results

theorem V1_arg3 (c : Dev nD) : V1 m ρ c main_arg3 = m ((c.tc : Thread nD τ).loc main_arg3) := by
  show StableHlo.after hostOps0 (W0 m ρ c) (Proc.devRef .tc main_arg3) = _
  after_results

/-- The neighbours' sums of the features, computed before the first launch. -/
theorem V1_v13 (c : Dev nD) :
    V1 m ρ c main_v13 = agg128 (m ((c.tc : Thread nD τ).loc main_arg0)) (m ((c.tc : Thread nD τ).loc main_arg1)) := by
  show StableHlo.after hostOps0 (W0 m ρ c) (Proc.devRef .tc main_v13) = _
  after_results
  rfl

/-- So the first launch leaves the hidden features. -/
theorem G0_eq (c : Dev nD) :
    Cert.Gin.Blocks.G0 (V1 m ρ) c = hidden (m ((c.tc : Thread nD τ).loc main_arg0)) (m ((c.tc : Thread nD τ).loc main_arg1))
      (m ((c.tc : Thread nD τ).loc main_arg2)) (m ((c.tc : Thread nD τ).loc main_arg3)) := by
  unfold Cert.Gin.Blocks.G0 hidden
  rw [V1_arg0, V1_v13, V1_arg2, V1_arg3]

/-! ## What the first launch leaves, and what the host operations between the launches read -/

theorem W2_v14 (c : Dev nD) :
    W2 m ρ c (Proc.devRef .tc main_v14) = hidden (m ((c.tc : Thread nD τ).loc main_arg0)) (m ((c.tc : Thread nD τ).loc main_arg1))
      (m ((c.tc : Thread nD τ).loc main_arg2)) (m ((c.tc : Thread nD τ).loc main_arg3)) :=
  (W2_arr m ρ c 4).trans ((Cert.Gin.Blocks.final0 (V1 m ρ) c).trans (G0_eq m ρ c))

/-- The source nodes were cut out of the edge array before the first launch, which does not touch them. -/
theorem W2_v1 (c : Dev nD) : W2 m ρ c (Proc.devRef .tc main_v1) = srcOf (m ((c.tc : Thread nD τ).loc main_arg1)) :=
  (W2_of_ne m ρ c main_v1 (by decide)).trans (by
    show StableHlo.after hostOps0 (W0 m ρ c) (Proc.devRef .tc main_v1) = _
    after_results
    rfl)

/-- The destination nodes likewise. -/
theorem W2_v3 (c : Dev nD) : W2 m ρ c (Proc.devRef .tc main_v3) = dstOf (m ((c.tc : Thread nD τ).loc main_arg1)) :=
  (W2_of_ne m ρ c main_v3 (by decide)).trans (by
    show StableHlo.after hostOps0 (W0 m ρ c) (Proc.devRef .tc main_v3) = _
    after_results
    rfl)

theorem W2_arg4 (c : Dev nD) : W2 m ρ c (Proc.devRef .tc main_arg4) = m ((c.tc : Thread nD τ).loc main_arg4) :=
  (W2_of_ne m ρ c main_arg4 (by decide)).trans (by
    show StableHlo.after hostOps0 (W0 m ρ c) (Proc.devRef .tc main_arg4) = _
    after_results)

theorem W2_arg5 (c : Dev nD) : W2 m ρ c (Proc.devRef .tc main_arg5) = m ((c.tc : Thread nD τ).loc main_arg5) :=
  (W2_of_ne m ρ c main_arg5 (by decide)).trans (by
    show StableHlo.after hostOps0 (W0 m ρ c) (Proc.devRef .tc main_arg5) = _
    after_results)

/-! ## What the second launch finds -/

theorem V3_v14 (c : Dev nD) :
    V3 m ρ c main_v14 = hidden (m ((c.tc : Thread nD τ).loc main_arg0)) (m ((c.tc : Thread nD τ).loc main_arg1))
      (m ((c.tc : Thread nD τ).loc main_arg2)) (m ((c.tc : Thread nD τ).loc main_arg3)) := by
  show StableHlo.after hostOps1 (W2 m ρ c) (Proc.devRef .tc main_v14) = _
  after_results
  exact W2_v14 m ρ c

theorem V3_arg4 (c : Dev nD) : V3 m ρ c main_arg4 = m ((c.tc : Thread nD τ).loc main_arg4) := by
  show StableHlo.after hostOps1 (W2 m ρ c) (Proc.devRef .tc main_arg4) = _
  after_results
  exact W2_arg4 m ρ c

theorem V3_arg5 (c : Dev nD) : V3 m ρ c main_arg5 = m ((c.tc : Thread nD τ).loc main_arg5) := by
  show StableHlo.after hostOps1 (W2 m ρ c) (Proc.devRef .tc main_arg5) = _
  after_results
  exact W2_arg5 m ρ c

/-- The neighbours' sums of the hidden features, computed between the launches. -/
theorem V3_v24 (c : Dev nD) :
    V3 m ρ c main_v24 = agg256 (hidden (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg1)) := by
  show StableHlo.after hostOps1 (W2 m ρ c) (Proc.devRef .tc main_v24) = _
  after_results
  rw [W2_v14, W2_v1, W2_v3]
  rfl

/-! ## The result array after the run -/

/-- The result array at the last boundary is `result` of the arguments. -/
theorem result_eq (c : Dev nD) :
    W4 m ρ c (Proc.devRef .tc main_v25) = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  refine (W4_arr m ρ c 4).trans ((Cert.Gin.Blocks.final1 (V3 m ρ) c).trans ?_)
  unfold Cert.Gin.Blocks.G1 result
  rw [V3_v14, V3_v24, V3_arg4, V3_arg5]

end Cert.Gin.KernelValue

end
-- ==== Proof.RefValue.lean ====
/-
  The reference program's result read at an index, at the ideal instance (floats are extended reals), written as the
  specification's functions.

  The first layer's output at (p, q) is max((1 · x + a) · W + b, 0) at (p, q), with a an array this module never opens
  (it takes the place of the specification's `a`). The reference multiplies by the word of 1.0 on the left and the
  specification on the right; the extended reals' product is commutative and the word itself is never evaluated. The
  bias of extent 256 is read through two broadcasts that only repeat it along rows.

  The result at (p, q) is the log-softmax of row p of (1 · h + a') · W' + b' at q, with h the first layer's output and
  a' a second array, neither of them opened here. The row maximum is a fold of max from the word of -∞ over the row's
  24 entries; the further maximum with -∞ changes nothing; the row sum of the exponentials starts from the zero
  word, which is the extended real 0.
-/
import proofs.«157535_j84645215470228_1_alg».proof.Proof.RefRead
import proofs.«157535_j84645215470228_1_alg».proof.Proof.Spec
import Idealize.ShloMosaic.Lib.ValueIdx
import Idealize.ShloMosaic.PureOps.Ideal.Laws
import Idealize.ShloMosaic.PureOps.Reduce

noncomputable section

open scoped BigOperators

namespace Cert.Gin.RefValue

open Idealize.ShloMosaic Idealize.ShloMosaic.ValueIdx Cert.ReferenceIdeal Cert.ReferenceIdeal.Gen Cert.ReferenceIdeal.ReadP

/-- The first layer's output at (p, q): the dense entry of the specification clipped below at zero. -/
theorem hidden_apply
    (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (p : Fin 100000) (q : Fin 256) :
    val_main_v21 (F := Ideal) x0 x1 x2 x3 (ix2 p q)
      = Cert.Gin.layer1 x0 (val_main_v13 (F := Ideal) x0 x1) x2 x3 p q := by
  rw [val_main_v21_apply, val_main_v20_apply, val_main_v17_apply, val_main_v19_apply, val_main_v18_apply,
    val_main_call0_v0_apply, val_main_call0_cst_apply]
  unfold Cert.Gin.layer1 Cert.Gin.dense Cert.Gin.pre
  have el : ∀ k : Fin 128, lidx_main_v17 (ix2 p q) k = ix2 p k := fun k =>
    funext fun a => Fin.ext (by match a with | ⟨0, _⟩ => rfl | ⟨1, _⟩ => rfl)
  have er : ∀ k : Fin 128, ridx_main_v17 (ix2 p q) k = ix2 k q := fun k =>
    funext fun a => Fin.ext (by match a with | ⟨0, _⟩ => rfl | ⟨1, _⟩ => rfl)
  have eb : idx_main_v18 (idx_main_v19 (ix2 p q)) = ix1 q :=
    funext fun a => Fin.ext (by match a with | ⟨0, _⟩ => rfl)
  rw [eb]
  refine congrArg₂ max (congrArg₂ (· + ·) (Finset.sum_congr rfl fun k _ => ?_) rfl) rfl
  rw [el k, er k, val_main_v16_apply, val_main_v15_apply, val_main_v14_apply, val_main_cst_1_apply]
  exact congrArg (· * x2 (ix2 k q)) (congrArg (· + val_main_v13 (F := Ideal) x0 x1 (ix2 p k)) (mul_comm _ _))

/-- The second layer before its activation at (p, j): the dense entry of the specification, over the first layer's
    output and the second opaque array. -/
theorem logits_apply
    (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x24, .f32⟩ : BufTy).Contents (Elt Ideal)) (x5 : (⟨S24, .f32⟩ : BufTy).Contents (Elt Ideal))
    (p : Fin 100000) (j : Fin 24) :
    val_main_v38 (F := Ideal) x0 x1 x2 x3 x4 x5 (ix2 p j)
      = Cert.Gin.dense (val_main_v21 (F := Ideal) x0 x1 x2 x3) (val_main_v31 (F := Ideal) x0 x1 x2 x3) x4 x5 p j := by
  rw [val_main_v38_apply, val_main_v35_apply, val_main_v37_apply, val_main_v36_apply]
  unfold Cert.Gin.dense Cert.Gin.pre
  have el : ∀ k : Fin 256, lidx_main_v35 (ix2 p j) k = ix2 p k := fun k =>
    funext fun a => Fin.ext (by match a with | ⟨0, _⟩ => rfl | ⟨1, _⟩ => rfl)
  have er : ∀ k : Fin 256, ridx_main_v35 (ix2 p j) k = ix2 k j := fun k =>
    funext fun a => Fin.ext (by match a with | ⟨0, _⟩ => rfl | ⟨1, _⟩ => rfl)
  have eb : idx_main_v36 (idx_main_v37 (ix2 p j)) = ix1 j :=
    funext fun a => Fin.ext (by match a with | ⟨0, _⟩ => rfl)
  rw [eb]
  refine congrArg₂ (· + ·) (Finset.sum_congr rfl fun k _ => ?_) rfl
  rw [el k, er k, val_main_v34_apply, val_main_v33_apply, val_main_v32_apply, val_main_cst_5_apply]
  generalize val_main_v21 (F := Ideal) x0 x1 x2 x3 = h
  generalize val_main_v31 (F := Ideal) x0 x1 x2 x3 = a
  exact congrArg (· * x4 (ix2 k j)) (congrArg (· + a (ix2 p k)) (mul_comm _ _))

/-- The row maximum at p, after the further maximum with -∞: the specification's row maximum of row p of the logits. -/
theorem rowmax_apply
    (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x24, .f32⟩ : BufTy).Contents (Elt Ideal)) (x5 : (⟨S24, .f32⟩ : BufTy).Contents (Elt Ideal))
    (p : Fin 100000) :
    val_main_call1_v2 (F := Ideal) x0 x1 x2 x3 x4 x5 (ix1 p)
      = Cert.Gin.rowMax (fun j : Fin 24 =>
          Cert.Gin.dense (val_main_v21 (F := Ideal) x0 x1 x2 x3) (val_main_v31 (F := Ideal) x0 x1 x2 x3) x4 x5 p j) := by
  have hred : S100000x24.Reduces [1] S100000 := by decide
  have e0 : val_main_call1_v0 (F := Ideal) x0 x1 x2 x3 x4 x5 (ix1 p)
      = Cert.Gin.rowMax (fun j : Fin 24 =>
          Cert.Gin.dense (val_main_v21 (F := Ideal) x0 x1 x2 x3) (val_main_v31 (F := Ideal) x0 x1 x2 x3) x4 x5 p j) := by
    unfold val_main_call1_v0
    refine (Host.reduce_eq_fold_single (FloatOps.maximumf (F := Ideal) (φ := .f32)) _ _
      reducesTo_S100000x24_S100000_d1 hred h_S_ (ix1 p)).trans ?_
    unfold Cert.Gin.rowMax
    have ef : (val_main_v38 (F := Ideal) x0 x1 x2 x3 x4 x5 ∘ hred.lift (ix1 p))
        = (fun j : Fin 24 =>
          Cert.Gin.dense (val_main_v21 (F := Ideal) x0 x1 x2 x3) (val_main_v31 (F := Ideal) x0 x1 x2 x3) x4 x5 p j) := by
      funext k
      have ek : hred.lift (ix1 p) k = ix2 p k :=
        funext fun a => Fin.ext (by match a with | ⟨0, _⟩ => rfl | ⟨1, _⟩ => rfl)
      show val_main_v38 (F := Ideal) x0 x1 x2 x3 x4 x5 (hred.lift (ix1 p) k) = _
      rw [ek]
      exact logits_apply x0 x1 x2 x3 x4 x5 p k
    rw [ef]
    rfl
  rw [val_main_call1_v2_apply, val_main_call1_v1_apply, val_main_call1_cst_0_apply, e0]
  exact Cert.Gin.max_ninf_rowMax _

/-- The result at (p, q): the specification's second layer, the log-softmax of row p of the logits at q. -/
theorem result_apply
    (x0 : (⟨S100000x128, .f32⟩ : BufTy).Contents (Elt Ideal)) (x1 : (⟨S2x600000, .i32⟩ : BufTy).Contents (Elt Ideal))
    (x2 : (⟨S128x256, .f32⟩ : BufTy).Contents (Elt Ideal)) (x3 : (⟨S256, .f32⟩ : BufTy).Contents (Elt Ideal))
    (x4 : (⟨S256x24, .f32⟩ : BufTy).Contents (Elt Ideal)) (x5 : (⟨S24, .f32⟩ : BufTy).Contents (Elt Ideal))
    (p : Fin 100000) (q : Fin 24) :
    val_main_v39 (F := Ideal) x0 x1 x2 x3 x4 x5 (ix2 p q)
      = Cert.Gin.layer2 (val_main_v21 (F := Ideal) x0 x1 x2 x3) (val_main_v31 (F := Ideal) x0 x1 x2 x3) x4 x5 p q := by
  -- the logit at (p, k) less the maximum of row p
  have e5 : ∀ k : Fin 24, val_main_call1_v5 (F := Ideal) x0 x1 x2 x3 x4 x5 (ix2 p k)
      = Cert.Gin.dense (val_main_v21 (F := Ideal) x0 x1 x2 x3) (val_main_v31 (F := Ideal) x0 x1 x2 x3) x4 x5 p k
        - Cert.Gin.rowMax (fun j : Fin 24 => Cert.Gin.dense (val_main_v21 (F := Ideal) x0 x1 x2 x3) (val_main_v31 (F := Ideal) x0 x1 x2 x3) x4 x5 p j) := fun k => by
    have e34 : idx_main_call1_v3 (idx_main_call1_v4 (ix2 p k)) = ix1 p :=
      funext fun a => Fin.ext (by match a with | ⟨0, _⟩ => rfl)
    rw [val_main_call1_v5_apply, val_main_call1_v4_apply, val_main_call1_v3_apply, e34, rowmax_apply, logits_apply]
    rfl
  -- the sum over row p of the exponentials, from the zero word
  have e7 : val_main_call1_v7 (F := Ideal) x0 x1 x2 x3 x4 x5 (ix1 p)
      = ∑ k : Fin 24, Ideal.exp (Cert.Gin.dense (val_main_v21 (F := Ideal) x0 x1 x2 x3) (val_main_v31 (F := Ideal) x0 x1 x2 x3) x4 x5 p k
        - Cert.Gin.rowMax (fun j : Fin 24 => Cert.Gin.dense (val_main_v21 (F := Ideal) x0 x1 x2 x3) (val_main_v31 (F := Ideal) x0 x1 x2 x3) x4 x5 p j)) := by
    rw [val_main_call1_v7_apply, val_main_call1_cst_1_apply, Ideal.ofBits_def, Ideal.ofBits_zero_f32, zero_add]
    refine Finset.sum_congr rfl fun k _ => ?_
    have ek : idx_main_call1_v7 (ix1 p) k = ix2 p k :=
      funext fun a => Fin.ext (by match a with | ⟨0, _⟩ => rfl | ⟨1, _⟩ => rfl)
    rw [ek, val_main_call1_v6_apply, e5 k]
    rfl
  have e810 : idx_main_call1_v8 (idx_main_call1_v10 (ix2 p q)) = ix1 p :=
    funext fun a => Fin.ext (by match a with | ⟨0, _⟩ => rfl)
  rw [val_main_v39_apply, val_main_call1_v10_apply, val_main_call1_v9_apply, val_main_call1_v8_apply, e810, e7, e5 q]
  unfold Cert.Gin.layer2 Cert.Gin.logSoftmax
  rfl

end Cert.Gin.RefValue

end
-- ==== Proof.Bridge.lean ====
/-
  The two programs compute one function. The kernel's program leaves `result` of its arguments (the second layer
  over the hidden features and their neighbours' sums, the hidden features the first layer over the features and
  theirs); the reference's last stage, read at an index, is the same second layer over its own first layer's output
  and its own sums. The neighbours' sums are the SAME host operations in both programs — the rows of node numbers cut
  out of the edge array, negative numbers counted from the end, a gather and an accumulating scatter with the same
  dimension numbers — so they are one term and are never opened; with them the first layers agree entry by entry,
  and then the second.
-/
import proofs.«157535_j84645215470228_1_alg».proof.Proof.KernelValue
import proofs.«157535_j84645215470228_1_alg».proof.Proof.RefValue

noncomputable section

open Idealize.ShloMosaic Idealize.ShloMosaic.TcCoe Idealize.SL.Sem Idealize.ShloMosaic.ValueIdx

namespace Cert.Gin.Bridge

open Cert.ReferenceIdeal Cert.ReferenceIdeal.ReadP Cert.Gin.KernelValue

variable (x0 : (⟨S100000x128, .f32⟩ : BufTy).Contents (Elt Ideal)) (x1 : (⟨S2x600000, .i32⟩ : BufTy).Contents (Elt Ideal))
  (x2 : (⟨S128x256, .f32⟩ : BufTy).Contents (Elt Ideal)) (x3 : (⟨S256, .f32⟩ : BufTy).Contents (Elt Ideal))
  (x4 : (⟨S256x24, .f32⟩ : BufTy).Contents (Elt Ideal)) (x5 : (⟨S24, .f32⟩ : BufTy).Contents (Elt Ideal))

/-- The reference's sum of the neighbours' features is the kernel program's: the same operations. -/
theorem agg128_ref : val_main_v13 (F := Ideal) x0 x1 = agg128 x0 x1 := by
  unfold val_main_v13 val_main_v12 val_main_v11 val_main_v10 val_main_v9 val_main_v8 val_main_v7 val_main_v6 val_main_v5
    val_main_v4 val_main_v3 val_main_v2 val_main_v1 val_main_v0 val_main_c val_main_c_0 val_main_cst
  unfold agg128 dstOf srcOf wrap
  rfl

/-- The reference's sum of the neighbours' hidden features is the kernel program's of the same hidden features. -/
theorem agg256_ref : val_main_v31 (F := Ideal) x0 x1 x2 x3 = agg256 (val_main_v21 (F := Ideal) x0 x1 x2 x3) x1 := by
  unfold val_main_v31 val_main_v28
  generalize val_main_v21 (F := Ideal) x0 x1 x2 x3 = h
  unfold val_main_v30 val_main_v29 val_main_v27 val_main_v26 val_main_v25 val_main_v24 val_main_v23 val_main_v22
    val_main_v3 val_main_v2 val_main_v1 val_main_v0 val_main_c_2 val_main_c_3 val_main_cst_4
  unfold agg256 dstOf srcOf wrap
  rfl

/-- The hidden features are the reference's first layer's output. -/
theorem hidden_ref : hidden x0 x1 x2 x3 = val_main_v21 (F := Ideal) x0 x1 x2 x3 := by
  funext i
  obtain ⟨p, q, rfl⟩ : ∃ (p : Fin 100000) (q : Fin 256), i = ix2 p q := ⟨i 0, i 1, eq_ix2 i⟩
  rw [Cert.Gin.RefValue.hidden_apply, agg128_ref]
  rfl

/-- The kernel program's result is the reference's last stage. -/
theorem result_ref : result x0 x1 x2 x3 x4 x5 = val_main_v39 (F := Ideal) x0 x1 x2 x3 x4 x5 := by
  funext i
  obtain ⟨p, q, rfl⟩ : ∃ (p : Fin 100000) (q : Fin 24), i = ix2 p q := ⟨i 0, i 1, eq_ix2 i⟩
  rw [Cert.Gin.RefValue.result_apply, agg256_ref]
  unfold result
  rw [hidden_ref]

end Cert.Gin.Bridge

end
-- ==== Proof.lean ====
/-
  The certificate's claims, assembled.

  The kernel's program runs a two-layer graph network with the dense parts of both layers as launches over 50 blocks
  of 2000 nodes and the neighbours' sums (a gather and an accumulating scatter over the 600000 edges) on the host; the
  reference runs the same network as whole-array host operations. Over the extended reals both results are, at node
  `p` and class `q`, the log-softmax at `q` of row `p` of `(h · 1 + Σ h) · W2 + b2` with
  `h = max((x · 1 + Σ x) · W1 + b1, 0)`, `Σ` the sum over a node's incoming edges: the launches' blocks are rows of
  one function of the whole arrays, a product accumulated into zeros is the host's product, the rounding of the
  products' operands to a narrower format is the identity, and the reference's extra maximum with `-∞` changes nothing.
  No finiteness of the inputs is used.
  The three frames: the two kernel programs' are the generated frame certificates; the reference's is its run with
  the result dropped. `preserves` has no conjunct (the idealization rewrote nothing).
-/
import proofs.«157535_j84645215470228_1_alg».proof.Defs
import proofs.«157535_j84645215470228_1_alg».proof.Proof.Gen.Kernel
import proofs.«157535_j84645215470228_1_alg».proof.Proof.Gen.Kernel.Frame
import proofs.«157535_j84645215470228_1_alg».proof.Proof.Gen.KernelIdeal
import proofs.«157535_j84645215470228_1_alg».proof.Proof.Gen.KernelIdeal.Frame
import proofs.«157535_j84645215470228_1_alg».proof.Proof.Gen.ReferenceIdeal
import proofs.«157535_j84645215470228_1_alg».proof.Proof.Gen.Pre_finite_inputs
import proofs.«157535_j84645215470228_1_alg».proof.Proof.KernelRun
import proofs.«157535_j84645215470228_1_alg».proof.Proof.KernelValue
import proofs.«157535_j84645215470228_1_alg».proof.Proof.RefRunThm
import proofs.«157535_j84645215470228_1_alg».proof.Proof.RefRead
import proofs.«157535_j84645215470228_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at `result` of the arguments: the kernel's by its run read through the
    two launches, the reference's by its run read stage by stage; the arguments agree. -/
theorem algebraic : Cert.algebraic_KernelIdeal_ReferenceIdeal := by
  intro m ρ m' ρ' _ hagree
  refine ⟨fun c => Cert.Gin.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gin.KernelValue.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v39_eq, (hagree c).1, (hagree c).2.1, (hagree c).2.2.1, (hagree c).2.2.2.1,
      (hagree c).2.2.2.2.1, (hagree c).2.2.2.2.2]
    exact (Cert.Gin.Bridge.result_ref _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
